-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S256x256 : Shape := ⟨2, ![256, 256]⟩
abbrev S1x256x64x64 : Shape := ⟨4, ![1, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256x64x64 : S_.BroadcastsInDim S1x256x64x64 (![] : Fin 0 → Fin S1x256x64x64.rank)
  reducesTo_S1x256x64x64_S_d0_1_2_3 : S1x256x64x64.ReducesTo [0, 1, 2, 3] S_

variable [Facts]

def fn {F : FTy → Type} [FloatOps F] (main_arg0 : FVec F S32x256x64x64 .f32) (main_arg1 : FVec F S256x256 .f32) (main_arg2 : FVec F S1x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256x64x64 .f32 := Host.absf main_arg2
  let main_cst_2 : FVec F S_ .f32 := constant S_ .f32 0x7F800000#32
  let main_v10 : FVec F S1x256x64x64 .f32 := broadcastInDim S1x256x64x64 ![] bcast_S_S1x256x64x64 main_cst_2
  let main_v11 : IVec S1x256x64x64 1 := cmpf .olt main_v9 main_v10
  let main_c_3 : IVec S_ 1 := constantI S_ 1 1#1
  let main_v12 : IVec S_ 1 := (fun x v => Host.reduce IntOp.andi x v reducesTo_S1x256x64x64_S_d0_1_2_3 h_S_) main_v11 main_c_3
  let main_v13 : IVec S_ 1 := andi main_v8 main_v12
  main_v13
-- ==== Kernel.lean ====
abbrev S32x256x64x64 : Shape := ⟨4, ![32, 256, 64, 64]⟩
abbrev S256x256 : Shape := ⟨2, ![256, 256]⟩
abbrev S1x256x64x64 : Shape := ⟨4, ![1, 256, 64, 64]⟩
abbrev S32x256x4096 : Shape := ⟨3, ![32, 256, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩
abbrev S1x256 : Shape := ⟨2, ![1, 256]⟩

abbrev nBuf : Space → Nat
  | .hbm => 7
  | .vmem => 6
  | .smem => 0
  | _ => 0

abbrev bufTy : (tb : Table) → Fin (tcTables nBuf tb) → BufTy
  | .hbm, ⟨0, _⟩ => ⟨S32x256x64x64, .f32⟩
  | .hbm, ⟨1, _⟩ => ⟨S256x256, .f32⟩
  | .hbm, ⟨2, _⟩ => ⟨S1x256x64x64, .f32⟩
  | .hbm, ⟨3, _⟩ => ⟨S32x256x4096, .f32⟩
  | .hbm, ⟨4, _⟩ => ⟨S1x256x4096, .f32⟩
  | .hbm, ⟨5, _⟩ => ⟨S32x256x4096, .f32⟩
  | .hbm, ⟨6, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S256x256, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x64x64_S32x256x4096 : S32x256x64x64.ShapeCasts S32x256x4096
  shapeCasts_S1x256x64x64_S1x256x4096 : S1x256x64x64.ShapeCasts S1x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  transposes_S256x1_p1_0_S1x256 : S256x1.Transposes [1, 0] S1x256
  broadcasts_S1x256_S256x256 : S1x256.Broadcasts S256x256
  broadcasts_S256x1_S256x256 : S256x1.Broadcasts S256x256
  transposes_S256x256_p1_0_S256x256 : S256x256.Transposes [1, 0] S256x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S256x4096_S1x256x4096 : S256x4096.ShapeCasts S1x256x4096
  shapeCasts_S32x256x4096_S32x256x64x64 : S32x256x4096.ShapeCasts S32x256x64x64
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S1x256x4096.size a
  hwx0_2 : ∀ i : grid0.Coords, EltTy.bits .f32 = 32 ∨ (Rect.block (s := S1x256x4096) S1x256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S32x256x4096.size a
  hwx0_3 : ∀ i : grid0.Coords, EltTy.bits .f32 = 32 ∨ (Rect.block (s := S32x256x4096) S1x256x4096.size (cc0_transform_3 i) (hinb0_3 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S256x256 : Shape := ⟨2, ![256, 256]⟩
abbrev S1x256x64x64 : Shape := ⟨4, ![1, 256, 64, 64]⟩
abbrev S32x256x4096 : Shape := ⟨3, ![32, 256, 4096]⟩
abbrev S_ : Shape := ⟨0, ![]⟩
abbrev S32x256 : Shape := ⟨2, ![32, 256]⟩
abbrev S32x1x256 : Shape := ⟨3, ![32, 1, 256]⟩
abbrev S32x256x1 : Shape := ⟨3, ![32, 256, 1]⟩
abbrev S32x256x256 : Shape := ⟨3, ![32, 256, 256]⟩
abbrev S1x256x256 : Shape := ⟨3, ![1, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S256x256, .f32⟩
  | .hbm, ⟨2, _⟩ => ⟨S1x256x64x64, .f32⟩
  | .hbm, ⟨3, _⟩ => ⟨S32x256x4096, .f32⟩
  | .hbm, ⟨4, _⟩ => ⟨S_, .f32⟩
  | .hbm, ⟨5, _⟩ => ⟨S32x256, .f32⟩
  | .hbm, ⟨6, _⟩ => ⟨S_, .f32⟩
  | .hbm, ⟨7, _⟩ => ⟨S32x256, .f32⟩
  | .hbm, ⟨8, _⟩ => ⟨S32x256, .f32⟩
  | .hbm, ⟨9, _⟩ => ⟨S32x1x256, .f32⟩
  | .hbm, ⟨10, _⟩ => ⟨S32x256x1, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S32x256x256, .f32⟩
  | .hbm, ⟨16, _⟩ => ⟨S_, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S32x256x256, .f32⟩
  | .hbm, ⟨21, _⟩ => ⟨S32x256x256, .f32⟩
  | .hbm, ⟨22, _⟩ => ⟨S_, .f32⟩
  | .hbm, ⟨23, _⟩ => ⟨S32x256x256, .f32⟩
  | .hbm, ⟨24, _⟩ => ⟨S32x256x256, .f32⟩
  | .hbm, ⟨25, _⟩ => ⟨S32x256x256, .f32⟩
  | .hbm, ⟨26, _⟩ => ⟨S_, .f32⟩
  | .hbm, ⟨27, _⟩ => ⟨S32x256x256, .f32⟩
  | .hbm, ⟨28, _⟩ => ⟨S32x256x256, .f32⟩
  | .hbm, ⟨29, _⟩ => ⟨S32x256x256, .f32⟩
  | .hbm, ⟨30, _⟩ => ⟨S_, .f32⟩
  | .hbm, ⟨31, _⟩ => ⟨S32x256x256, .f32⟩
  | .hbm, ⟨32, _⟩ => ⟨S32x256x256, .f32⟩
  | .hbm, ⟨33, _⟩ => ⟨S32x256x256, .f32⟩
  | .hbm, ⟨34, _⟩ => ⟨S32x256x256, .f32⟩
  | .hbm, ⟨35, _⟩ => ⟨S_, .f32⟩
  | .hbm, ⟨36, _⟩ => ⟨S32x256x256, .f32⟩
  | .hbm, ⟨37, _⟩ => ⟨S32x256x256, .f32⟩
  | .hbm, ⟨38, _⟩ => ⟨S1x256x256, .f32⟩
  | .hbm, ⟨39, _⟩ => ⟨S32x256x256, .f32⟩
  | .hbm, ⟨40, _⟩ => ⟨S32x256x256, .f32⟩
  | .hbm, ⟨41, _⟩ => ⟨S32x256x4096, .f32⟩
  | .hbm, ⟨42, _⟩ => ⟨S32x256x64x64, .f32⟩
  | .hbm, ⟨43, _⟩ => ⟨S32x256x64x64, .f32⟩
  | .hbm, ⟨44, _⟩ => ⟨S32x256x64x64, .f32⟩
  | .hbm, ⟨45, _⟩ => ⟨S_, .f32⟩
  | .hbm, ⟨46, _⟩ => ⟨S32x256x64x64, .f32⟩
  | .hbm, ⟨47, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S32x256_S32x1x256_0_2 : S32x256.BroadcastsInDim S32x1x256 (![0, 2] : Fin 2 → Fin S32x1x256.rank)
  bcast_S32x256_S32x256x1_0_1 : S32x256.BroadcastsInDim S32x256x1 (![0, 1] : Fin 2 → Fin S32x256x1.rank)
  bcast_S32x1x256_S32x256x256_0_1_2 : S32x1x256.BroadcastsInDim S32x256x256 (![0, 1, 2] : Fin 3 → Fin S32x256x256.rank)
  bcast_S32x256x1_S32x256x256_0_1_2 : S32x256x1.BroadcastsInDim S32x256x256 (![0, 1, 2] : Fin 3 → Fin S32x256x256.rank)
  bcast_S_S32x256x256 : S_.BroadcastsInDim S32x256x256 (![] : Fin 0 → Fin S32x256x256.rank)
  transposes_S32x256x256_S32x256x256_0_2_1 : S32x256x256.Transposes [0, 2, 1] S32x256x256
  bcast_S256x256_S1x256x256_1_2 : S256x256.BroadcastsInDim S1x256x256 (![1, 2] : Fin 2 → Fin S1x256x256.rank)
  bcast_S1x256x256_S32x256x256_0_1_2 : S1x256x256.BroadcastsInDim S32x256x256 (![0, 1, 2] : Fin 3 → Fin S32x256x256.rank)
  shapeCasts_S32x256x4096_S32x256x64x64 : S32x256x4096.ShapeCasts S32x256x64x64
  bcast_S1x256x64x64_S32x256x64x64_0_1_2_3 : S1x256x64x64.BroadcastsInDim S32x256x64x64 (![0, 1, 2, 3] : Fin 4 → Fin S32x256x64x64.rank)
  bcast_S_S32x256x64x64 : S_.BroadcastsInDim S32x256x64x64 (![] : Fin 0 → Fin S32x256x64x64.rank)
  dot_S32x256x256_S32x256x4096_S32x256x4096_2_1_1_2_0_0_wf : DotDims.WF S32x256x256 S32x256x4096 S32x256x4096 [2] [1] [1] [2] [0] [0]

variable [Facts₀]

def dot_S32x256x256_S32x256x4096_S32x256x4096_2_1_1_2_0_0 : DotDims S32x256x256 S32x256x4096 S32x256x4096 where
  lhsContracting := [2]
  rhsContracting := [1]
  lhsNonContracting := [1]
  rhsNonContracting := [2]
  lhsBatch := [0]
  rhsBatch := [0]
  wf := dot_S32x256x256_S32x256x4096_S32x256x4096_2_1_1_2_0_0_wf

class Facts : Prop extends Facts₀ where

variable [Facts]
-- ==== Proof.ChannelGraph.lean ====
/-
  The mathematics of the channel-graph layer, stated once over plain coordinates.

  For one sample, with `X i k` the feature of channel `i` at flattened position `k` (256 channels, 4096 = 64·64
  positions), `A` the 256 × 256 adjacency and `P` the per-position scale:

    c i        = (Σ_k X i k) · 2⁻¹²                      the channel's spatial mean
    f(a, b)    = | |σ(b − a) − ½| − ½ | · 2               σ the logistic function; a "tent" of σ around ½
    W i j      = A i j · ((f(c i, c j) + f(c j, c i)) · ½)  the symmetrised edge weight
    Y i k      = Σ_j W i j · X j k                        one step of message passing
    out i k    = max (Y i k · P i k) 0

  Everything is on the extended reals. The float literals stay as their words (`Ideal.ofBits`): the same word on both
  sides of the equivalence is never evaluated. Only two facts about words are needed, and they are proved here: the word
  of 2⁻¹² denotes 1/4096 and the word of 4096 denotes 4096, so that a quotient by the second is a product with the first,
  at the infinities too; and the word of 1.0 denotes 1, which makes the logistic function the quotient 1 / (1 + e⁻ˣ).
-/
import Idealize.ShloMosaic.PureOps.Ideal
import Idealize.ShloMosaic.PureOps.Ideal.Laws
import Idealize.ShloMosaic.PureOps.IdealRules
import Idealize.ShloMosaic.Lib.ValueIdx

noncomputable section

namespace ChannelGraph

open Idealize.ShloMosaic Idealize.ShloMosaic.ValueIdx

/-- The literal ½. -/
abbrev half : EReal := Ideal.ofBits .f32 0x3F000000#32
/-- The literal 2. -/
abbrev two : EReal := Ideal.ofBits .f32 0x40000000#32
/-- The literal 2⁻¹² = 1/4096, the reciprocal of the number of spatial positions. -/
abbrev invPositions : EReal := Ideal.ofBits .f32 0x39800000#32
/-- The literal 0. -/
abbrev zeroWord : EReal := Ideal.ofBits .f32 0x00000000#32

/-- The absolute value on the extended reals, as both programs compute it: the larger of `x` and `-x`. -/
def eabs (x : EReal) : EReal := max x (-x)

/-- The spatial mean of channel `i`: the sum over its 4096 positions, times 2⁻¹². -/
def chanMean (X : Fin 256 → Fin 4096 → EReal) (i : Fin 256) : EReal := (∑ k : Fin 4096, X i k) * invPositions

/-- The tent of the logistic function of a difference of two means: `| |σ(b − a) − ½| − ½ | · 2`. -/
def tent (a b : EReal) : EReal := eabs (eabs (Ideal.logistic (b - a) - half) - half) * two

/-- The edge weight between channels `i` and `j`: the adjacency entry times the symmetrised tent. -/
def edgeWeight (A : Fin 256 → Fin 256 → EReal) (c : Fin 256 → EReal) (i j : Fin 256) : EReal :=
  A i j * ((tent (c i) (c j) + tent (c j) (c i)) * half)

/-- One step of message passing: channel `i` at position `k` gathers every channel `j` with its edge weight. -/
def propagate (A : Fin 256 → Fin 256 → EReal) (X : Fin 256 → Fin 4096 → EReal) (i : Fin 256) (k : Fin 4096) : EReal :=
  ∑ j : Fin 256, edgeWeight A (chanMean X) i j * X j k

/-- The layer's result for one sample: the propagated feature scaled position by position, then clamped at zero. -/
def layer (A : Fin 256 → Fin 256 → EReal) (X : Fin 256 → Fin 4096 → EReal) (P : Fin 256 → Fin 4096 → EReal)
    (i : Fin 256) (k : Fin 4096) : EReal :=
  max (propagate A X i k * P i k) zeroWord

/-- The layer over a batch of 32 samples, as ONE function of the three arrays in their flattened layout
    ([32, 256, 4096], [256, 256], [1, 256, 4096]), index by index. -/
def layerArray (X3 : (⟨3, ![32, 256, 4096]⟩ : Shape).Idx → EReal) (A2 : (⟨2, ![256, 256]⟩ : Shape).Idx → EReal)
    (P3 : (⟨3, ![1, 256, 4096]⟩ : Shape).Idx → EReal) : (⟨3, ![32, 256, 4096]⟩ : Shape).Idx → EReal :=
  fun idx => layer (fun i j => A2 (ix2 i j)) (fun i k => X3 (ix3 (idx 0) i k)) (fun i k => P3 (ix3 0 i k)) (idx 1) (idx 2)

/-! ## The three facts about words -/

/-- The word of 1.0 denotes 1. -/
theorem one_word : Ideal.ofBits .f32 0x3F800000#32 = 1 := IdealRules.sign_bit.ideal_onePat .f32

/-- The word of 4096.0 denotes the real 4096. -/
theorem positions_word : Ideal.ofBits .f32 0x45800000#32 = ((4096 : ℝ) : EReal) := by
  simp [Ideal.ofBits, Ideal.ieee, -EReal.coe_mul]; norm_num

/-- The word of 2⁻¹² denotes the real 1/4096. -/
theorem invPositions_word : invPositions = ((1 / 4096 : ℝ) : EReal) := by
  simp [invPositions, Ideal.ofBits, Ideal.ieee, -EReal.coe_mul]; norm_num

/-- A quotient by the word of 4096 is the product with the word of 2⁻¹², on every extended real. -/
theorem div_positions (s : EReal) : Ideal.div s (Ideal.ofBits .f32 0x45800000#32) = s * invPositions := by
  rw [positions_word, invPositions_word]
  exact Ideal.div_coe (by norm_num) s

/-- The logistic function is the quotient the reference spells: `1 / (1 + e^(-x))` with the word of 1.0 for both ones. -/
theorem logistic_as_quotient (x : EReal) :
    Ideal.div (Ideal.ofBits .f32 0x3F800000#32) (Ideal.ofBits .f32 0x3F800000#32 + Ideal.exp (-x)) = Ideal.logistic x := by
  rw [one_word]; rfl

end ChannelGraph

end
-- ==== Proof.BodyValue.lean ====
/-
  The kernel body's stored value, read at an index.

  The body views its `[1, 256, 4096]` block of features as `X : [256, 4096]`, sums each row over its 4096 lanes and
  multiplies by 2⁻¹² (the channel means `c`), lays the means out as a column, forms `d i j = c j − c i` from the column
  transposed to a row and repeated down the rows minus the column repeated along the lanes, applies the logistic function,
  subtracts ½ and takes the absolute value twice, doubles, adds the transpose of the result, halves, multiplies by the
  adjacency, multiplies the `[256, 256]` weight matrix with `X`, scales position by position, clamps at zero and views the
  result as `[1, 256, 4096]` again. Read at `(0, i, k)` this is the channel-graph layer at channel `i` and position `k`.
  On the extended reals every pointwise operation is the textbook one and a change of format is the identity, so the
  proof is one lemma per operation that moves indices (the views, the lane sum, the transposes, the two broadcasts, the
  matrix product), then the pointwise operations read through.
-/
import proofs.«125901_j68178310857300_1_alg».proof.Proof.Gen.KernelIdeal.Skeleton
import proofs.«125901_j68178310857300_1_alg».proof.Proof.ChannelGraph
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen
open Facts₀ Facts

/-! ## The layout operations of the body, read at coordinates -/

section Layout
variable {α : Type}

/-- A vector of 256 entries viewed as a column `[256, 1]` reads, at `(i, u)`, the entry `i`. -/
theorem column_apply (v : (⟨1, ![256]⟩ : Shape).Idx → α) (h : (⟨1, ![256]⟩ : Shape).ShapeCasts ⟨2, ![256, 1]⟩)
    (i : Fin 256) (u : Fin 1) : shapeCast ⟨2, ![256, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A column `[256, 1]` broadcast along the lanes to `[256, 256]` reads, at `(p, c)`, the column's entry `p`. -/
theorem broadcastColumn_apply (v : (⟨2, ![256, 1]⟩ : Shape).Idx → α)
    (h : (⟨2, ![256, 1]⟩ : Shape).Broadcasts ⟨2, ![256, 256]⟩) (p c : Fin 256) :
    broadcastTo ⟨2, ![256, 256]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

end Layout

/-- The sum of a `[256, 4096]` block over its lanes reads, at row `i`, the sum of that row's 4096 entries. -/
theorem rowSum_apply (v : FVec Ideal S256x4096 .f32) (h : S256x4096.Reduces [1] S256) (hφ : FKind.Formats .f32)
    (hacc : (0x00000000#32 : BitVec 32) = FKind.add.neutral .f32 hφ) (i : Fin 256) :
    multiReduction (F := Ideal) .add [1] S256 v 0x00000000#32 h hφ hacc (ix1 i) = ∑ k : Fin 4096, v (ix2 i k) := by
  refine (Ideal.multiReduction_add_single v _ h hφ hacc (ix1 i)).trans ?_
  refine Finset.sum_congr rfl fun k _ => congrArg v (funext fun a => Fin.ext ?_)
  match a with
  | ⟨0, _⟩ => rfl
  | ⟨1, _⟩ => rfl

/-! ## The matrix product: its operand indices, and its value as a sum over the 256 channels -/

theorem lhs_dot_0 (j : S256x4096.Idx) (q : dot_S256x256_S256x4096_S256x4096_1_0_0_1_n_n.contr.Idx) :
    (dot_S256x256_S256x4096_S256x4096_1_0_0_1_n_n.lhsIdx j q 0).val = (j 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhs_dot_1 (j : S256x4096.Idx) (q : dot_S256x256_S256x4096_S256x4096_1_0_0_1_n_n.contr.Idx) :
    (dot_S256x256_S256x4096_S256x4096_1_0_0_1_n_n.lhsIdx j q 1).val = (q ⟨0, by decide⟩).val :=
  dot_S256x256_S256x4096_S256x4096_1_0_0_1_n_n.lhsIdx_val_of_single rfl j q
theorem rhs_dot_0 (j : S256x4096.Idx) (q : dot_S256x256_S256x4096_S256x4096_1_0_0_1_n_n.contr.Idx) :
    (dot_S256x256_S256x4096_S256x4096_1_0_0_1_n_n.rhsIdx j q 0).val = (q ⟨0, by decide⟩).val :=
  dot_S256x256_S256x4096_S256x4096_1_0_0_1_n_n.rhsIdx_val_of_single rfl j q
theorem rhs_dot_1 (j : S256x4096.Idx) (q : dot_S256x256_S256x4096_S256x4096_1_0_0_1_n_n.contr.Idx) :
    (dot_S256x256_S256x4096_S256x4096_1_0_0_1_n_n.rhsIdx j q 1).val = (j 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- The product of a `[256, 256]` matrix with a `[256, 4096]` block into a zero accumulator reads, at `(i, k)`, the sum
    over the 256 channels `j` of the matrix at `(i, j)` times the block at `(j, k)`. -/
theorem product_apply {φ₁ φ₂ : FTy} (W : FVec Ideal S256x256 φ₁) (X : FVec Ideal S256x4096 φ₂) (i : Fin 256) (k : Fin 4096) :
    matmul dot_S256x256_S256x4096_S256x4096_1_0_0_1_n_n none W X (constant (F := Ideal) S256x4096 .f32 0x00000000#32) (ix2 i k)
      = ∑ j : Fin 256, W (ix2 i j) * X (ix2 j k) := by
  simp only [matmul]
  rw [Ideal.matmul_constant_zero_apply, ← Equiv.sum_comp (contrEquiv1 dot_S256x256_S256x4096_S256x4096_1_0_0_1_n_n 256 rfl rfl).symm]
  refine Finset.sum_congr rfl fun j _ => ?_
  have hj := contrEquiv1_symm_val dot_S256x256_S256x4096_S256x4096_1_0_0_1_n_n 256 rfl rfl j
  have el : dot_S256x256_S256x4096_S256x4096_1_0_0_1_n_n.lhsIdx (ix2 i k) ((contrEquiv1 dot_S256x256_S256x4096_S256x4096_1_0_0_1_n_n 256 rfl rfl).symm j) = ix2 i j := funext fun a => Fin.ext (by
    match a with
    | ⟨0, _⟩ => exact lhs_dot_0 _ _
    | ⟨1, _⟩ => exact (lhs_dot_1 _ _).trans hj)
  have er : dot_S256x256_S256x4096_S256x4096_1_0_0_1_n_n.rhsIdx (ix2 i k) ((contrEquiv1 dot_S256x256_S256x4096_S256x4096_1_0_0_1_n_n 256 rfl rfl).symm j) = ix2 j k := funext fun a => Fin.ext (by
    match a with
    | ⟨0, _⟩ => exact (rhs_dot_0 _ _).trans hj
    | ⟨1, _⟩ => exact rhs_dot_1 _ _)
  rw [el, er]

/-! ## The channel means, the tent of their differences, and the edge weights -/

/-- The lane sums as a column, times the word of 2⁻¹²: at `(i, u)` the spatial mean of channel `i`. -/
theorem mean_apply (v : FVec Ideal S256x4096 .f32) (h : S256x4096.Reduces [1] S256) (hφ : FKind.Formats .f32)
    (hacc : (0x00000000#32 : BitVec 32) = FKind.add.neutral .f32 hφ) (hc : S256.ShapeCasts S256x1) (i : Fin 256) (u : Fin 1) :
    mulf (shapeCast S256x1 (multiReduction (F := Ideal) .add [1] S256 v 0x00000000#32 h hφ hacc) hc)
        (broadcast S256x1 (FloatOps.ofBits (F := Ideal) .f32 0x39800000#32)) (ix2 i u)
      = ChannelGraph.chanMean (fun i k => v (ix2 i k)) i := by
  rw [mulf_apply, column_apply, rowSum_apply]
  rfl

/-- From a column `c` of means: the difference matrix `c j − c i` (the column laid out as a row and repeated down the
    rows, minus the column repeated along the lanes), through the logistic function, the two absolute values with ½
    subtracted, times 2. At `(i, j)` it is the tent of `c i` and `c j`. -/
theorem tent_apply (c : FVec Ideal S256x1 .f32) (ht : S256x1.Transposes [1, 0] S1x256) (hr : S1x256.Broadcasts S256x256)
    (hc : S256x1.Broadcasts S256x256) (i j : Fin 256) :
    mulf (absf (subf (absf (subf (logistic (subf (broadcastTo S256x256 (transpose S1x256 [1, 0] c ht) hr) (broadcastTo S256x256 c hc)))
        (broadcast S256x256 (FloatOps.ofBits (F := Ideal) .f32 0x3F000000#32))))
        (broadcast S256x256 (FloatOps.ofBits (F := Ideal) .f32 0x3F000000#32))))
        (broadcast S256x256 (FloatOps.ofBits (F := Ideal) .f32 0x40000000#32)) (ix2 i j)
      = ChannelGraph.tent (c (ix2 i (0 : Fin 1))) (c (ix2 j (0 : Fin 1))) := by
  show ChannelGraph.eabs (ChannelGraph.eabs (Ideal.logistic
      (broadcastTo S256x256 (transpose S1x256 [1, 0] c ht) hr (ix2 i j) - broadcastTo S256x256 c hc (ix2 i j))
        - ChannelGraph.half) - ChannelGraph.half) * ChannelGraph.two = _
  rw [broadcastTo_1b_ab_apply, transpose_ix2_apply, broadcastColumn_apply]
  rfl

/-- The tent matrix plus its own transpose, times ½, times the adjacency: at `(i, j)` the edge weight between channels
    `i` and `j`. -/
theorem weight_apply (A T : FVec Ideal S256x256 .f32) (ht : S256x256.Transposes [1, 0] S256x256) (i j : Fin 256) :
    mulf A (mulf (addf T (transpose S256x256 [1, 0] T ht)) (broadcast S256x256 (FloatOps.ofBits (F := Ideal) .f32 0x3F000000#32))) (ix2 i j)
      = A (ix2 i j) * ((T (ix2 i j) + T (ix2 j i)) * ChannelGraph.half) := by
  rw [mulf_apply, mulf_apply, addf_apply, transpose_ix2_apply]
  rfl

/-! ## The body's stored value -/

/-- The value the body stores, read at `(0, i, k)`: the layer of the channel graph at channel `i` and position `k`, over
    the adjacency, the sample's features and the per-position scale read by coordinates. -/
theorem payload_apply (x0 : Vec Ideal S1x256x4096 .f32) (x1 : Vec Ideal S256x256 .f32) (x2 : Vec Ideal S1x256x4096 .f32) (i : Fin 256) (k : Fin 4096) :
    k0_pay1 (F := Ideal) x0 x1 x2 (ix3 0 i k)
      = ChannelGraph.layer (fun i j => x1 (ix2 i j)) (fun i k => x0 (ix3 0 i k)) (fun i k => x2 (ix3 0 i k)) i k := by
  unfold k0_pay1
  rw [shapeCast_ab_1ab_apply, maximumf_apply, mulf_apply, shapeCast_1ab_ab_apply, product_apply]
  unfold ChannelGraph.layer ChannelGraph.propagate
  refine congrArg₂ max (congrArg₂ HMul.hMul (Finset.sum_congr rfl fun j _ => ?_) rfl) rfl
  rw [truncf_apply, truncf_apply, shapeCast_1ab_ab_apply, weight_apply]
  rw [tent_apply, tent_apply]
  rw (config := { transparency := .default }) [mean_apply, mean_apply]
  simp only [shapeCast_1ab_ab_apply]
  rfl

end Cert.KernelIdeal.BodyValue

end
-- ==== Proof.KernelRun.lean ====
/-
  The kernel program's result as one function of its arguments.

  The program flattens the features [32, 256, 64, 64] to [32, 256, 4096] and the scale [1, 256, 64, 64] to [1, 256, 4096],
  runs the layer on a grid of 32 points, one sample per point, and restores the spatial axes of the result.
  Point `t` reads sample `t`'s [256, 4096] slab, the whole adjacency and the whole scale, and writes sample `t`'s slab
  of the output; the body's stored value at (i, k) is the layer of the specification at (i, k) (the body's value, read at
  an index, is in the module this one imports). So what point `t` writes back is block `t` of ONE whole-array function,
  `layerArray` of the flattened arrays; the 32 blocks tile the output array, so after the run the array IS that
  function; and the reshape that follows the region brings it back to four axes: `resultOf`.
-/
import proofs.«125901_j68178310857300_1_alg».proof.Proof.Gen.KernelIdeal.Frame
import proofs.«125901_j68178310857300_1_alg».proof.Proof.ChannelGraph
import proofs.«125901_j68178310857300_1_alg».proof.Proof.BodyValue
import Idealize.ShloMosaic.Lib.Pipeline.Value
import Idealize.ShloMosaic.Lib.ValueIdx
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- The zero offset of a rank-3 (rank-2) rectangle that covers its whole buffer. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The flattened feature array the region finds: the first argument reshaped. -/
theorem V_main_v0 (c : Dev nD) : (V m c main_v0 : S32x256x4096.Idx → EReal)
    = shapeCast S32x256x4096 (m ((c : Thread nD τ).loc main_arg0)) shapeCasts_S32x256x64x64_S32x256x4096 := by
  show StableHlo.after hostOps0 (fun b => m (c, b)) (Proc.devRef .tc main_v0) = _
  after_results
  rfl

/-- The flattened scale array the region finds: the third argument reshaped. -/
theorem V_main_v1 (c : Dev nD) : (V m c main_v1 : S1x256x4096.Idx → EReal)
    = shapeCast S1x256x4096 (m ((c : Thread nD τ).loc main_arg2)) shapeCasts_S1x256x64x64_S1x256x4096 := by
  show StableHlo.after hostOps0 (fun b => m (c, b)) (Proc.devRef .tc main_v1) = _
  after_results
  rfl

/-- The region's output array as one function of the arrays the region finds. -/
abbrev G3 (c : Dev nD) : S32x256x4096.Idx → EReal :=
  ChannelGraph.layerArray (V m c main_v0) (V m c main_arg1) (V m c main_v1)

/-- The printed index maps, decided over the 32 grid points: the feature window moves with the output window along the
    sample axis, the adjacency and the scale stay at block 0, and no window moves along the other axes. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (1 : Fin 3) = 0 ∧ win0_3.index t (2 : Fin 3) = 0 ∧ win0_3.index t (0 : Fin 3) ≤ 31 :=
  (by decide +kernel : ∀ t : Fin grid0.N, _)

/-- Every sample's block of the output is some point's. -/
theorem idx_onto : ∀ q : Fin 32, ∃ t : Fin cfg0.N, win0_3.index t = ![q.val, 0, 0] :=
  (by decide +kernel : ∀ q : Fin 32, ∃ t : Fin grid0.N, win0_3.index t = ![q.val, 0, 0])

/-- What point `t` writes back is block `t` of `G3`: the body's value at (i, k) is the layer at (i, k) of the point's
    blocks, and each block is its array read where the output's block sits (sample `t`; the whole of the other axes). -/
theorem flushed_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz3]
  simp only [View.ld_unit_zero (S := S1x256x4096) hz3, View.ld_unit_zero (S := S256x256) hz2]
  obtain ⟨e00, e01, e02, e10, e11, e20, e21, e22, e31, e32, e30⟩ := idx_facts t
  have hb : win0_3.index t (0 : Fin 3) < 32 := by omega
  funext j
  revert j
  show ∀ j : S1x256x4096.Idx, k0_pay1 (iblk m c 0 t) (iblk m c 1 t) (iblk m c 2 t) j = G3 m c (((cfg0.win 3).blk t).view.emb j)
  intro j
  obtain ⟨i, k, rfl⟩ : ∃ (i : Fin 256) (k : Fin 4096), j = ix3 0 i k :=
    ⟨j 1, j 2, funext fun a => match a with
      | ⟨0, _⟩ => Fin.ext (by have h0 : (j 0).val < 1 := (j 0).isLt; show (j 0).val = 0; omega)
      | ⟨1, _⟩ => rfl
      | ⟨2, _⟩ => rfl⟩
  refine (Cert.KernelIdeal.BodyValue.payload_apply (iblk m c 0 t) (iblk m c 1 t) (iblk m c 2 t) i k).trans ?_
  have hemb : ((cfg0.win 3).blk t).view.emb (ix3 0 i k) = (ix3 ⟨win0_3.index t (0 : Fin 3), hb⟩ i k : S32x256x4096.Idx) := by
    funext a; apply Fin.ext
    match a with
    | ⟨0, _⟩ => show win0_3.index t (0 : Fin 3) * 1 + 1 * 0 = win0_3.index t (0 : Fin 3); omega
    | ⟨1, _⟩ => show win0_3.index t (1 : Fin 3) * 256 + 1 * i.val = i.val; omega
    | ⟨2, _⟩ => show win0_3.index t (2 : Fin 3) * 4096 + 1 * k.val = k.val; omega
  rw [hemb]
  show _ = ChannelGraph.layer (fun i j => V m c main_arg1 (ix2 i j))
    (fun i' k' => V m c main_v0 (ix3 ⟨win0_3.index t (0 : Fin 3), hb⟩ i' k')) (fun i' k' => V m c main_v1 (ix3 0 i' k')) i k
  have hA : (fun i j => iblk m c 1 t (ix2 i j)) = fun i j => V m c main_arg1 (ix2 i j) := by
    funext i j
    show V m c main_arg1 (((cfg0.win 1).blk t).view.emb (ix2 i j)) = V m c main_arg1 (ix2 i j)
    refine congrArg _ (funext fun a => Fin.ext ?_)
    match a with
    | ⟨0, _⟩ => show win0_1.index t (0 : Fin 2) * 256 + 1 * i.val = i.val; omega
    | ⟨1, _⟩ => show win0_1.index t (1 : Fin 2) * 256 + 1 * j.val = j.val; omega
  have hX : (fun i' k' => iblk m c 0 t (ix3 0 i' k')) = fun i' k' => V m c main_v0 (ix3 ⟨win0_3.index t (0 : Fin 3), hb⟩ i' k') := by
    funext i' k'
    show V m c main_v0 (((cfg0.win 0).blk t).view.emb (ix3 0 i' k')) = V m c main_v0 (ix3 ⟨win0_3.index t (0 : Fin 3), hb⟩ i' k')
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 256 + 1 * i'.val = i'.val; omega
    | ⟨2, _⟩ => show win0_0.index t (2 : Fin 3) * 4096 + 1 * k'.val = k'.val; omega
  have hP : (fun i' k' => iblk m c 2 t (ix3 0 i' k')) = fun i' k' => V m c main_v1 (ix3 0 i' k') := by
    funext i' k'
    show V m c main_v1 (((cfg0.win 2).blk t).view.emb (ix3 0 i' k')) = V m c main_v1 (ix3 0 i' k')
    refine congrArg _ (funext fun a => Fin.ext ?_)
    match a with
    | ⟨0, _⟩ => show win0_2.index t (0 : Fin 3) * 1 + 1 * 0 = 0; omega
    | ⟨1, _⟩ => show win0_2.index t (1 : Fin 3) * 256 + 1 * i'.val = i'.val; omega
    | ⟨2, _⟩ => show win0_2.index t (2 : Fin 3) * 4096 + 1 * k'.val = k'.val; omega
  rw [hA, hX, hP]

/-- An index of the output array lies in point `t`'s block iff each coordinate is in the block's range on its axis. -/
theorem mem_blk (t : Fin cfg0.N) (i : S32x256x4096.Idx) :
    i ∈ ((cfg0.win 3).blk t).view.set ↔ ∀ a : Fin 3, win0_3.index t a * S1x256x4096.size a ≤ (i a).val ∧ (i a).val < win0_3.index t a * S1x256x4096.size a + S1x256x4096.size a := by
  show i ∈ ((View.whole main_v2).slice (win0_3.rect t)).set ↔ _
  rw [View.set_slice_whole, Rect.mem_set_unit]
  exact Iff.rfl

/-- Every index of the output array is in the block of the point that handles its sample. -/
theorem cover (i : S32x256x4096.Idx) : ∃ t : Fin cfg0.N, (cfg0.win 3).flush t = true ∧ i ∈ ((cfg0.win 3).blk t).view.set := by
  obtain ⟨t, ht⟩ := idx_onto (i 0)
  have q0 : win0_3.index t (0 : Fin 3) = (i 0).val := congrFun ht 0
  have q1 : win0_3.index t (1 : Fin 3) = 0 := congrFun ht 1
  have q2 : win0_3.index t (2 : Fin 3) = 0 := congrFun ht 2
  have h1 : (i 1).val < 256 := (i 1).isLt
  have h2 : (i 2).val < 4096 := (i 2).isLt
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- The region's output array after the run. -/
theorem final3 (c : Dev nD) : (dats m 0 c).arrAt 3 cfg0.N = G3 m c :=
  (dats m 0 c).arrAt_eq_of_cover 3 (G3 m c) (fun t _ => flushed_eq m c t) cover

/-- The reshape after the region reads the region's output array: the result buffer holds `G3` with its spatial axes restored. -/
theorem tail_main_v3 (c : Dev nD) :
    Pipeline.afterTail₀ cfgs (dats m) 0 (V0 m) [hostOps1] c main_v3
      = shapeCast S32x256x64x64 (G3 m c) shapeCasts_S32x256x4096_S32x256x64x64 := by
  unfold Pipeline.afterTail₀
  show StableHlo.after hostOps1 _ (Proc.devRef .tc main_v3) = _
  after_results
  have hW : Pipeline.withArrays (cfgs 0).spec c (V0 m c) (fun w => (dats m 0 c).arrAt w (cfgs 0).N) (Proc.devRef .tc main_v2) = G3 m c :=
    (Pipeline.withArrays_arr spec0 launch0.win.arr_inj c _ _ 3).trans (final3 m c)
  rw [hW]
  rfl

/-- The program's result as one function of its three arguments: flatten the features and the scale, apply the layer
    sample by sample, and restore the spatial axes. -/
abbrev resultOf (x4 : S32x256x64x64.Idx → EReal) (a2 : S256x256.Idx → EReal) (p4 : S1x256x64x64.Idx → EReal) :
    S32x256x64x64.Idx → EReal :=
  shapeCast S32x256x64x64 (ChannelGraph.layerArray (shapeCast S32x256x4096 x4 shapeCasts_S32x256x64x64_S32x256x4096) a2
    (shapeCast S1x256x4096 p4 shapeCasts_S1x256x64x64_S1x256x4096)) shapeCasts_S32x256x4096_S32x256x64x64

/-- `G3` over the arguments themselves: the arrays the region finds are the reshaped first and third arguments and the second as launched. -/
theorem G3_eq (c : Dev nD) : G3 m c = ChannelGraph.layerArray
    (shapeCast S32x256x4096 (m ((c : Thread nD τ).loc main_arg0)) shapeCasts_S32x256x64x64_S32x256x4096)
    (m ((c : Thread nD τ).loc main_arg1))
    (shapeCast S1x256x4096 (m ((c : Thread nD τ).loc main_arg2)) shapeCasts_S1x256x64x64_S1x256x4096) := by
  unfold G3
  rw [V_main_v0, V_main_v1, V_main_arg1]

/-- Every weakly fair execution of the program ends with the result buffer at `resultOf` of the arguments, the
    arguments unchanged. -/
theorem run : θ_run defs (onTc (τ := τ) (main (F := Ideal))) ⟨m, fun _ => 0, ρ⟩ fun r => ∀ c : Dev nD,
      r.2.mem ((c.tc : Thread nD τ).loc main_v3)
        = resultOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans
        ((tail_main_v3 m c).trans (by rw [G3_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.ReferenceValue.lean ====
/-
  The reference program's result is the channel-graph layer of the specification, index by index.
-/
import proofs.«125901_j68178310857300_1_alg».proof.Proof.Gen.ReferenceIdeal.Read
import proofs.«125901_j68178310857300_1_alg».proof.Proof.ChannelGraph
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read

/-- The flattened input read at (b, i, k) is the input at (b, i, k / 64, k % 64). -/
theorem flat_apply (x4 : Vec Ideal S32x256x64x64 .f32) (hx : S32x256x64x64.ShapeCasts S32x256x4096)
    (b : Fin 32) (i : Fin 256) (h : Fin 64) (w : Fin 64) (k : Fin 4096) (hk : k.val = 64 * h.val + w.val) :
    shapeCast S32x256x4096 x4 hx (ix3 b i k) = x4 (ix4 b i h w) := by
  refine shapeCast_apply x4 hx (ix3 b i k) (ix4 b i h w) ?_
  rewrite [Shape.rowMajor_val_four, Shape.rowMajor_val_three]
  show ((b.val * 256 + i.val) * 64 + h.val) * 64 + w.val = (b.val * 256 + i.val) * 4096 + k.val
  omega

/-- The sum over the two spatial axes of the input at (b, i) is the sum over the 4096 flattened positions. -/
theorem sum_spatial (x4 : Vec Ideal S32x256x64x64 .f32) (hx : S32x256x64x64.ShapeCasts S32x256x4096)
    (b : Fin 32) (i : Fin 256) :
    ∑ i4 ∈ Finset.univ.filter (fun i4 => reducesTo_S32x256x64x64_S32x256_d2_3.drop i4 = ix2 b i), x4 i4
      = ∑ k : Fin 4096, shapeCast S32x256x4096 x4 hx (ix3 b i k) := by
  have h0 : ∀ i4 : S32x256x64x64.Idx, ((reducesTo_S32x256x64x64_S32x256_d2_3.drop i4) 0).val = (i4 0).val :=
    fun i4 => reducesTo_S32x256x64x64_S32x256_d2_3.drop_apply_val_of_eq i4 0 0
  have h1 : ∀ i4 : S32x256x64x64.Idx, ((reducesTo_S32x256x64x64_S32x256_d2_3.drop i4) 1).val = (i4 1).val :=
    fun i4 => reducesTo_S32x256x64x64_S32x256_d2_3.drop_apply_val_of_eq i4 1 1
  refine Finset.sum_nbij'
    (fun i4 => (⟨64 * (i4 2).val + (i4 3).val, by have h2 : (i4 2).val < 64 := (i4 2).isLt; have h3 : (i4 3).val < 64 := (i4 3).isLt; show 64 * (i4 2).val + (i4 3).val < 4096; omega⟩ : Fin 4096))
    (fun k => ix4 b i (⟨k.val / 64, by have := k.isLt; omega⟩ : Fin 64) (⟨k.val % 64, by omega⟩ : Fin 64))
    (fun _ _ => Finset.mem_univ _) ?_ ?_ ?_ ?_
  · intro k _
    rw [Finset.mem_filter]
    refine ⟨Finset.mem_univ _, funext fun a => Fin.ext ?_⟩
    match a with
    | ⟨0, _⟩ => exact h0 _
    | ⟨1, _⟩ => exact h1 _
  · intro i4 hi4
    rw [Finset.mem_filter] at hi4
    have e0 : (i4 0).val = b.val := (h0 i4).symm.trans (congrArg (fun j : S32x256.Idx => (j 0).val) hi4.2)
    have e1 : (i4 1).val = i.val := (h1 i4).symm.trans (congrArg (fun j : S32x256.Idx => (j 1).val) hi4.2)
    funext a
    refine Fin.ext ?_
    have h2 : (i4 2).val < 64 := (i4 2).isLt; have h3 : (i4 3).val < 64 := (i4 3).isLt
    match a with
    | ⟨0, _⟩ => exact e0.symm
    | ⟨1, _⟩ => exact e1.symm
    | ⟨2, _⟩ => show (64 * (i4 2).val + (i4 3).val) / 64 = (i4 2).val; omega
    | ⟨3, _⟩ => show (64 * (i4 2).val + (i4 3).val) % 64 = (i4 3).val; omega
  · intro k _
    refine Fin.ext ?_
    show 64 * (k.val / 64) + k.val % 64 = k.val
    omega
  · intro i4 hi4
    rw [Finset.mem_filter] at hi4
    have e0 : (i4 0).val = b.val := (h0 i4).symm.trans (congrArg (fun j : S32x256.Idx => (j 0).val) hi4.2)
    have e1 : (i4 1).val = i.val := (h1 i4).symm.trans (congrArg (fun j : S32x256.Idx => (j 1).val) hi4.2)
    rw [flat_apply x4 hx b i (i4 2) (i4 3) _ rfl]
    refine congrArg x4 (funext fun a => Fin.ext ?_)
    match a with
    | ⟨0, _⟩ => exact e0
    | ⟨1, _⟩ => exact e1
    | ⟨2, _⟩ => rfl
    | ⟨3, _⟩ => rfl

/-- The channels' flattened features of sample `b`: channel `i'` at flattened position `k`. -/
abbrev feat (x4 : Vec Ideal S32x256x64x64 .f32) (hx : S32x256x64x64.ShapeCasts S32x256x4096) (b : Fin 32) :
    Fin 256 → Fin 4096 → EReal :=
  fun i' k => shapeCast S32x256x4096 x4 hx (ix3 b i' k)

/-- The reference's quotient of the spatial sum by 4096 is the channel mean. -/
theorem mean_apply (x4 : Vec Ideal S32x256x64x64 .f32) (hx : S32x256x64x64.ShapeCasts S32x256x4096)
    (b : Fin 32) (i : Fin 256) :
    val_main_v3 (F := Ideal) x4 (ix2 b i) = ChannelGraph.chanMean (feat x4 hx b) i := by
  rw [val_main_v3_apply, val_main_v2_apply, val_main_cst_0_apply]
  show Ideal.div (Ideal.ofBits .f32 0x00000000#32
      + ∑ i4 ∈ Finset.univ.filter (fun i4 => reducesTo_S32x256x64x64_S32x256_d2_3.drop i4 = ix2 b i), x4 i4)
      (Ideal.ofBits .f32 0x45800000#32) = _
  rw [ChannelGraph.div_positions, Ideal.ofBits_zero_f32, zero_add, sum_spatial x4 hx b i]
  rfl

/-- The reference's tent of the logistic function at (b, i, j) is the tent of the means of channels `i` and `j`. -/
theorem tent_apply (x4 : Vec Ideal S32x256x64x64 .f32) (hx : S32x256x64x64.ShapeCasts S32x256x4096)
    (b : Fin 32) (i j : Fin 256) :
    val_main_v22 (F := Ideal) x4 (ix3 b i j)
      = ChannelGraph.tent (ChannelGraph.chanMean (feat x4 hx b) i) (ChannelGraph.chanMean (feat x4 hx b) j) := by
  have e6 : idx_main_v4 (idx_main_v6 (ix3 b i j)) = ix2 b j :=
    funext fun a => Fin.ext (by match a with | ⟨0, _⟩ => rfl | ⟨1, _⟩ => rfl)
  have e7 : idx_main_v5 (idx_main_v7 (ix3 b i j)) = ix2 b i :=
    funext fun a => Fin.ext (by match a with | ⟨0, _⟩ => rfl | ⟨1, _⟩ => rfl)
  rw [val_main_v22_apply, val_main_v20_apply, val_main_v19_apply, val_main_v17_apply, val_main_v16_apply,
    val_main_v14_apply, val_main_v12_apply, val_main_v10_apply, val_main_v9_apply, val_main_v8_apply,
    val_main_v6_apply, val_main_v4_apply, val_main_v7_apply, val_main_v5_apply, e6, e7,
    mean_apply x4 hx b j, mean_apply x4 hx b i,
    val_main_v21_apply, val_main_cst_5_apply, val_main_v18_apply, val_main_cst_4_apply,
    val_main_v15_apply, val_main_cst_3_apply, val_main_v13_apply, val_main_cst_2_apply,
    val_main_v11_apply, val_main_cst_1_apply]
  show ChannelGraph.eabs (ChannelGraph.eabs (Ideal.div (Ideal.ofBits .f32 0x3F800000#32)
      (Ideal.ofBits .f32 0x3F800000#32
        + Ideal.exp (-(ChannelGraph.chanMean (feat x4 hx b) j - ChannelGraph.chanMean (feat x4 hx b) i)))
      - ChannelGraph.half) - ChannelGraph.half) * ChannelGraph.two = _
  rw [ChannelGraph.logistic_as_quotient]
  rfl

/-- The reference's symmetrised, adjacency-scaled weight at (b, i, j) is the edge weight between channels `i` and `j`. -/
theorem weight_apply (x4 : Vec Ideal S32x256x64x64 .f32) (a2 : Vec Ideal S256x256 .f32)
    (hx : S32x256x64x64.ShapeCasts S32x256x4096) (b : Fin 32) (i j : Fin 256) :
    val_main_v29 (F := Ideal) x4 a2 (ix3 b i j)
      = ChannelGraph.edgeWeight (fun i j => a2 (ix2 i j)) (ChannelGraph.chanMean (feat x4 hx b)) i j := by
  have e28 : idx_main_v27 (idx_main_v28 (ix3 b i j)) = ix2 i j :=
    funext fun a => Fin.ext (by match a with | ⟨0, _⟩ => rfl | ⟨1, _⟩ => rfl)
  have e23 : idx_main_v23 (ix3 b i j) = ix3 b j i :=
    funext fun a => Fin.ext (by match a with | ⟨0, _⟩ => rfl | ⟨1, _⟩ => rfl | ⟨2, _⟩ => rfl)
  rw [val_main_v29_apply, val_main_v28_apply, val_main_v27_apply, e28, val_main_v26_apply, val_main_v24_apply,
    val_main_v23_apply, e23, tent_apply x4 hx b i j, tent_apply x4 hx b j i, val_main_v25_apply,
    val_main_cst_6_apply]
  rfl

/-- The reference's result is the channel-graph layer of the flattened arrays, brought back to the four-axis layout. -/
theorem reference_eq (x4 : Vec Ideal S32x256x64x64 .f32) (a2 : Vec Ideal S256x256 .f32) (p4 : Vec Ideal S1x256x64x64 .f32)
    (hx : S32x256x64x64.ShapeCasts S32x256x4096) (hp : S1x256x64x64.ShapeCasts (⟨3, ![1, 256, 4096]⟩ : Shape))
    (ho : S32x256x4096.ShapeCasts S32x256x64x64) :
    val_main_v34 (F := Ideal) x4 a2 p4
      = shapeCast S32x256x64x64 (ChannelGraph.layerArray (shapeCast S32x256x4096 x4 hx) a2
          (shapeCast (⟨3, ![1, 256, 4096]⟩ : Shape) p4 hp)) ho := by
  funext idx
  obtain ⟨b, i, h, w, rfl⟩ : ∃ (b : Fin 32) (i : Fin 256) (h : Fin 64) (w : Fin 64), idx = ix4 b i h w :=
    ⟨idx 0, idx 1, idx 2, idx 3, eq_ix4 idx⟩
  have hh : h.val < 64 := h.isLt
  have hw : w.val < 64 := w.isLt
  have hK : 64 * h.val + w.val < 4096 := by omega
  -- the right side at (b, i, h, w) is the layer at the flattened position 64 h + w
  rw [shapeCast_apply (ChannelGraph.layerArray (shapeCast S32x256x4096 x4 hx) a2
      (shapeCast (⟨3, ![1, 256, 4096]⟩ : Shape) p4 hp)) ho (ix4 b i h w) (ix3 b i ⟨64 * h.val + w.val, hK⟩)
    (by rewrite [Shape.rowMajor_val_three, Shape.rowMajor_val_four]
        show (b.val * 256 + i.val) * 4096 + (64 * h.val + w.val) = ((b.val * 256 + i.val) * 64 + h.val) * 64 + w.val
        omega)]
  -- the left side, one operation at a time
  have e31 : idx_main_v31 (ix4 b i h w) = ix3 b i ⟨64 * h.val + w.val, hK⟩ :=
    funext fun a => Fin.ext (by
      have hb : b.val < 32 := b.isLt
      have hi : i.val < 256 := i.isLt
      match a with
      | ⟨0, _⟩ => show (((b.val * 256 + i.val) * 64 + h.val) * 64 + w.val) / 1048576 = b.val; omega
      | ⟨1, _⟩ => show (((b.val * 256 + i.val) * 64 + h.val) * 64 + w.val) / 4096 % 256 = i.val; omega
      | ⟨2, _⟩ => show (((b.val * 256 + i.val) * 64 + h.val) * 64 + w.val) % 4096 = 64 * h.val + w.val; omega)
  rw [val_main_v34_apply, val_main_v33_apply, val_main_v31_apply, e31, val_main_v30_apply, val_main_v32_apply,
    val_main_call0_v0_apply, val_main_call0_cst_apply]
  -- the scale at (0, i, 64 h + w) of the flattened array is the scale at (0, i, h, w)
  have hP : shapeCast (⟨3, ![1, 256, 4096]⟩ : Shape) p4 hp (ix3 0 i ⟨64 * h.val + w.val, hK⟩)
      = p4 (idx_main_v32 (ix4 b i h w)) :=
    shapeCast_apply p4 hp _ _ (by
      rewrite [Shape.rowMajor_val_four, Shape.rowMajor_val_three]
      show ((0 * 256 + i.val) * 64 + h.val) * 64 + w.val = (0 * 256 + i.val) * 4096 + (64 * h.val + w.val)
      omega)
  -- each term of the contraction is an edge weight times a feature
  have hS : ∀ k : Fin 256,
      val_main_v29 (F := Ideal) x4 a2 (lidx_main_v30 (ix3 b i ⟨64 * h.val + w.val, hK⟩) k)
          * val_main_v0 (F := Ideal) x4 (ridx_main_v30 (ix3 b i ⟨64 * h.val + w.val, hK⟩) k)
        = ChannelGraph.edgeWeight (fun i j => a2 (ix2 i j)) (ChannelGraph.chanMean (feat x4 hx b)) i k
          * feat x4 hx b k ⟨64 * h.val + w.val, hK⟩ := by
    intro k
    have el : lidx_main_v30 (ix3 b i ⟨64 * h.val + w.val, hK⟩) k = ix3 b i k :=
      funext fun a => Fin.ext (by match a with | ⟨0, _⟩ => rfl | ⟨1, _⟩ => rfl | ⟨2, _⟩ => rfl)
    have er : ridx_main_v30 (ix3 b i ⟨64 * h.val + w.val, hK⟩) k = ix3 b k ⟨64 * h.val + w.val, hK⟩ :=
      funext fun a => Fin.ext (by match a with | ⟨0, _⟩ => rfl | ⟨1, _⟩ => rfl | ⟨2, _⟩ => rfl)
    rw [el, er, weight_apply x4 a2 hx b i k]
    rfl
  rw [Finset.sum_congr rfl (fun k _ => hS k), ← hP]
  rfl

end Cert.ReferenceIdeal.RefValue

end
-- ==== Proof.lean ====
/-
  The proof of `Cert.Claim`: the three frames, `preserves` and the equivalence over the extended reals of a
  channel-graph message-passing layer.

  For each of 32 samples the layer takes the spatial mean `c i` of each of 256 channels, builds the edge weights
  `W i j = A i j · ((f(c i, c j) + f(c j, c i)) · ½)` with `f(a, b) = | |σ(b − a) − ½| − ½ | · 2` (σ the logistic function),
  propagates `Y i k = Σ_j W i j · X j k` over the 4096 flattened positions, scales by `P i k` and clamps at zero
  (Proof/ChannelGraph.lean states it once).

  The kernel computes the mean as the lane sum times 2⁻¹² and the reference as the sum over the two spatial axes divided by
  4096: the same extended real, since 2⁻¹² is exactly 1/4096 and a quotient by a nonzero real is the product with its
  reciprocal at the infinities too; the two sums are one sum re-indexed. The kernel applies the logistic function as one
  operation, the reference spells it `1 / (1 + e^(-x))`: one function on the extended reals. The kernel's product of the
  weight matrix with the sample's slab on the matrix unit (its operands rounded to bf16, which at the ideal values is the
  identity) and the reference's batched `dot_general` are the same sum over `j`. No step moves a factor across a sum or
  cancels, so finiteness of the inputs is never used.

  Kernel side: Proof/BodyValue.lean reads the body's stored value at an index; Proof/KernelRun.lean lifts it through the
  grid's 32 blocks and the reshapes around the region to `resultOf` of the arguments. Reference side:
  Proof/ReferenceValue.lean reads the reference's operations one at a time to the same `resultOf`. The ledger of the
  idealization is empty, so `preserves` is `True`.
-/
import proofs.«125901_j68178310857300_1_alg».proof.Defs
import proofs.«125901_j68178310857300_1_alg».proof.Proof.Gen.Kernel
import proofs.«125901_j68178310857300_1_alg».proof.Proof.Gen.Kernel.Skeleton
import proofs.«125901_j68178310857300_1_alg».proof.Proof.Gen.Kernel.Launch
import proofs.«125901_j68178310857300_1_alg».proof.Proof.Gen.Kernel.Points
import proofs.«125901_j68178310857300_1_alg».proof.Proof.Gen.Kernel.Frame
import proofs.«125901_j68178310857300_1_alg».proof.Proof.Gen.KernelIdeal
import proofs.«125901_j68178310857300_1_alg».proof.Proof.Gen.KernelIdeal.Skeleton
import proofs.«125901_j68178310857300_1_alg».proof.Proof.Gen.KernelIdeal.Launch
import proofs.«125901_j68178310857300_1_alg».proof.Proof.Gen.KernelIdeal.Points
import proofs.«125901_j68178310857300_1_alg».proof.Proof.Gen.KernelIdeal.Frame
import proofs.«125901_j68178310857300_1_alg».proof.Proof.Gen.ReferenceIdeal
import proofs.«125901_j68178310857300_1_alg».proof.Proof.Gen.Pre_finite_inputs
import proofs.«125901_j68178310857300_1_alg».proof.Proof.Gen.ReferenceIdeal.Run
import proofs.«125901_j68178310857300_1_alg».proof.Proof.Gen.ReferenceIdeal.Read
import proofs.«125901_j68178310857300_1_alg».proof.Proof.ChannelGraph
import proofs.«125901_j68178310857300_1_alg».proof.Proof.KernelRun
import proofs.«125901_j68178310857300_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at `resultOf` of the arguments: the
    kernel's run read through its blocks, the reference's run read operation by operation. -/
theorem algebraic : Cert.algebraic_KernelIdeal_ReferenceIdeal := by
  intro m ρ m' ρ' _ hagree
  refine ⟨fun c => Cert.KernelIdeal.RunValue.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq,
    Cert.ReferenceIdeal.RefValue.reference_eq _ _ _ Cert.ReferenceIdeal.Gen.shapeCasts_S32x256x64x64_S32x256x4096
      Cert.KernelIdeal.Gen.shapeCasts_S1x256x64x64_S1x256x4096 Cert.ReferenceIdeal.Gen.shapeCasts_S32x256x4096_S32x256x64x64,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
